-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x32x32 : Shape := ⟨4, ![32, 2048, 32, 32]⟩
abbrev S32x32x32 : Shape := ⟨3, ![32, 32, 32]⟩
abbrev S256x2048 : Shape := ⟨2, ![256, 2048]⟩
abbrev S_ : Shape := ⟨0, ![]⟩

class Facts : Prop where
  bcast_S_S32x2048x32x32 : S_.BroadcastsInDim S32x2048x32x32 (![] : Fin 0 → Fin S32x2048x32x32.rank)
  reducesTo_S32x2048x32x32_S_d0_1_2_3 : S32x2048x32x32.ReducesTo [0, 1, 2, 3] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S32x32x32 : S_.BroadcastsInDim S32x32x32 (![] : Fin 0 → Fin S32x32x32.rank)
  reducesTo_S32x32x32_S_d0_1_2 : S32x32x32.ReducesTo [0, 1, 2] S_

variable [Facts]

def fn_part1 {F : FTy → Type} [FloatOps F] (main_v13 : IVec S_ 1) (main_v15 : IVec S32x32x32 1) (main_c_5 : IVec S_ 1) : IVec S_ 1 :=
  let main_v16 : IVec S_ 1 := (fun x v => Host.reduce IntOp.andi x v reducesTo_S32x32x32_S_d0_1_2 h_S_) main_v15 main_c_5
  let main_v17 : IVec S_ 1 := andi main_v13 main_v16
  main_v17

def fn {F : FTy → Type} [FloatOps F] (main_arg0 : FVec F S32x2048x32x32 .f32) (main_arg1 : IVec S32x32x32 32) (main_arg2 : FVec F S256x2048 .f32) (main_arg3 : FVec F S256x2048 .f32) : IVec S_ 1 :=
  let main_v0 : FVec F S32x2048x32x32 .f32 := Host.absf main_arg0
  let main_cst : FVec F S_ .f32 := constant S_ .f32 0x7F800000#32
  let main_v1 : FVec F S32x2048x32x32 .f32 := broadcastInDim S32x2048x32x32 ![] bcast_S_S32x2048x32x32 main_cst
  let main_v2 : IVec S32x2048x32x32 1 := cmpf .olt main_v0 main_v1
  let main_c : IVec S_ 1 := constantI S_ 1 1#1
  let main_v3 : IVec S_ 1 := (fun x v => Host.reduce IntOp.andi x v reducesTo_S32x2048x32x32_S_d0_1_2_3 h_S_) main_v2 main_c
  let main_v4 : FVec F S256x2048 .f32 := Host.absf main_arg2
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256x2048 .f32 := Host.absf main_arg3
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_c_4 : IVec S_ 32 := constantI S_ 32 0#32
  let main_v14 : IVec S32x32x32 32 := broadcastInDim S32x32x32 ![] bcast_S_S32x32x32 main_c_4
  let main_v15 : IVec S32x32x32 1 := cmpi .sge main_arg1 main_v14
  let main_c_5 : IVec S_ 1 := constantI S_ 1 1#1
  fn_part1 (F := F) main_v13 main_v15 main_c_5
-- ==== Kernel.lean ====
abbrev S32x2048x32x32 : Shape := ⟨4, ![32, 2048, 32, 32]⟩
abbrev S32x32x32 : Shape := ⟨3, ![32, 32, 32]⟩
abbrev S256x2048 : Shape := ⟨2, ![256, 2048]⟩
abbrev S32x2048x1024 : Shape := ⟨3, ![32, 2048, 1024]⟩
abbrev S_ : Shape := ⟨0, ![]⟩
abbrev S32x1x1024 : Shape := ⟨3, ![32, 1, 1024]⟩
abbrev S2048x256 : Shape := ⟨2, ![2048, 256]⟩
abbrev S2048x512 : Shape := ⟨2, ![2048, 512]⟩
abbrev S1x1024x1024 : Shape := ⟨3, ![1, 1024, 1024]⟩
abbrev S1x1x1024 : Shape := ⟨3, ![1, 1, 1024]⟩
abbrev S1024x512 : Shape := ⟨2, ![1024, 512]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S512x1024 : Shape := ⟨2, ![512, 1024]⟩

abbrev nBuf : Space → Nat
  | .hbm => 28
  | .vmem => 10
  | .smem => 0
  | _ => 0

abbrev bufTy : (tb : Table) → Fin (tcTables nBuf tb) → BufTy
  | .hbm, ⟨0, _⟩ => ⟨S32x2048x32x32, .f32⟩
  | .hbm, ⟨1, _⟩ => ⟨S32x32x32, .i32⟩
  | .hbm, ⟨2, _⟩ => ⟨S256x2048, .f32⟩
  | .hbm, ⟨3, _⟩ => ⟨S256x2048, .f32⟩
  | .hbm, ⟨4, _⟩ => ⟨S32x2048x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S32x32x32, .i32⟩
  | .hbm, ⟨9, _⟩ => ⟨S32x32x32, .i32⟩
  | .hbm, ⟨10, _⟩ => ⟨S_, .i32⟩
  | .hbm, ⟨11, _⟩ => ⟨S32x32x32, .i32⟩
  | .hbm, ⟨12, _⟩ => ⟨S32x32x32, .i32⟩
  | .hbm, ⟨13, _⟩ => ⟨S32x1x1024, .i32⟩
  | .hbm, ⟨14, _⟩ => ⟨S2048x256, .f32⟩
  | .hbm, ⟨15, _⟩ => ⟨S2048x256, .f32⟩
  | .hbm, ⟨16, _⟩ => ⟨S2048x256, .bf16⟩
  | .hbm, ⟨17, _⟩ => ⟨S2048x256, .f32⟩
  | .hbm, ⟨18, _⟩ => ⟨S2048x256, .f32⟩
  | .hbm, ⟨19, _⟩ => ⟨S2048x256, .bf16⟩
  | .hbm, ⟨20, _⟩ => ⟨S2048x256, .bf16⟩
  | .hbm, ⟨21, _⟩ => ⟨S2048x256, .f32⟩
  | .hbm, ⟨22, _⟩ => ⟨S2048x256, .f32⟩
  | .hbm, ⟨23, _⟩ => ⟨S2048x256, .bf16⟩
  | .hbm, ⟨24, _⟩ => ⟨S2048x512, .bf16⟩
  | .hbm, ⟨25, _⟩ => ⟨S2048x512, .bf16⟩
  | .hbm, ⟨26, _⟩ => ⟨S32x2048x1024, .f32⟩
  | .hbm, ⟨27, _⟩ => ⟨S32x2048x32x32, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .i32⟩
  | .local _ .vmem, ⟨3, _⟩ => ⟨S1x1x1024, .i32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1024x1024, .f32⟩
  | .local _ .vmem, ⟨9, _⟩ => ⟨S1x1024x1024, .f32⟩
  | _, _ => ⟨S32x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x2048x32x32_S32x2048x1024 : S32x2048x32x32.ShapeCasts S32x2048x1024
  bcast_S_S32x32x32 : S_.BroadcastsInDim S32x32x32 (![] : Fin 0 → Fin S32x32x32.rank)
  shapeCasts_S32x32x32_S32x1x1024 : S32x32x32.ShapeCasts S32x1x1024
  transposes_S256x2048_S2048x256_1_0 : S256x2048.Transposes [1, 0] S2048x256
  bitsLt_bf16_f32 : FTy.bits .bf16 < FTy.bits .f32
  concatenates_S2048x256_S2048x256_S2048x512_d1 : Shape.Concatenates [S2048x256, S2048x256] S2048x512 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S256x1024_d0_w32 : S256x1024.Iotas .tc 32 [0]
  shapeCasts_S1024_S1x1024 : S1024.ShapeCasts S1x1024
  broadcasts_S1x1024_S256x1024 : S1x1024.Broadcasts S256x1024
  natLt_1_32 : 1 < 32
  concatenates_S256x1024_S256x1024_S512x1024_d0 : Shape.Concatenates [S256x1024, S256x1024] S512x1024 0
  shapeCasts_S1024x1024_S1x1024x1024 : S1024x1024.ShapeCasts S1x1024x1024
  shapeCasts_S32x2048x1024_S32x2048x32x32 : S32x2048x1024.ShapeCasts S32x2048x32x32
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x2048x1024.size a
  hwx0_0 : ∀ i : grid0.Coords, EltTy.bits .f32 = 32 ∨ (Rect.block (s := S32x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .i32 = 32 ∨ (Rect.block (s := S32x1x1024) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x512.size a
  hwx0_2 : ∀ i : grid0.Coords, EltTy.bits .bf16 = 32 ∨ (Rect.block (s := S2048x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S2048x512.size a
  hwx0_3 : ∀ i : grid0.Coords, EltTy.bits .bf16 = 32 ∨ (Rect.block (s := S2048x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S32x2048x1024.size a
  hwx0_4 : ∀ i : grid0.Coords, EltTy.bits .f32 = 32 ∨ (Rect.block (s := S32x2048x1024) S1x1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x32x32 : Shape := ⟨4, ![32, 2048, 32, 32]⟩
abbrev S32x32x32 : Shape := ⟨3, ![32, 32, 32]⟩
abbrev S256x2048 : Shape := ⟨2, ![256, 2048]⟩
abbrev S_ : Shape := ⟨0, ![]⟩
abbrev S32x32x32x1 : Shape := ⟨4, ![32, 32, 32, 1]⟩
abbrev S32x32x32x2048 : Shape := ⟨4, ![32, 32, 32, 2048]⟩

abbrev nBuf : Space → Nat
  | .hbm => 26
  | .vmem => 0
  | .smem => 0
  | _ => 0

abbrev bufTy : (tb : Table) → Fin (tcTables nBuf tb) → BufTy
  | .hbm, ⟨0, _⟩ => ⟨S32x2048x32x32, .f32⟩
  | .hbm, ⟨1, _⟩ => ⟨S32x32x32, .i32⟩
  | .hbm, ⟨2, _⟩ => ⟨S256x2048, .f32⟩
  | .hbm, ⟨3, _⟩ => ⟨S256x2048, .f32⟩
  | .hbm, ⟨4, _⟩ => ⟨S_, .i32⟩
  | .hbm, ⟨5, _⟩ => ⟨S32x32x32, .i32⟩
  | .hbm, ⟨6, _⟩ => ⟨S32x32x32, .i1⟩
  | .hbm, ⟨7, _⟩ => ⟨S_, .i32⟩
  | .hbm, ⟨8, _⟩ => ⟨S32x32x32, .i32⟩
  | .hbm, ⟨9, _⟩ => ⟨S32x32x32, .i32⟩
  | .hbm, ⟨10, _⟩ => ⟨S32x32x32, .i32⟩
  | .hbm, ⟨11, _⟩ => ⟨S32x32x32x1, .i32⟩
  | .hbm, ⟨12, _⟩ => ⟨S32x32x32x2048, .f32⟩
  | .hbm, ⟨13, _⟩ => ⟨S32x2048x32x32, .f32⟩
  | .hbm, ⟨14, _⟩ => ⟨S_, .i32⟩
  | .hbm, ⟨15, _⟩ => ⟨S32x32x32, .i32⟩
  | .hbm, ⟨16, _⟩ => ⟨S32x32x32, .i1⟩
  | .hbm, ⟨17, _⟩ => ⟨S_, .i32⟩
  | .hbm, ⟨18, _⟩ => ⟨S32x32x32, .i32⟩
  | .hbm, ⟨19, _⟩ => ⟨S32x32x32, .i32⟩
  | .hbm, ⟨20, _⟩ => ⟨S32x32x32, .i32⟩
  | .hbm, ⟨21, _⟩ => ⟨S32x32x32x1, .i32⟩
  | .hbm, ⟨22, _⟩ => ⟨S32x32x32x2048, .f32⟩
  | .hbm, ⟨23, _⟩ => ⟨S32x2048x32x32, .f32⟩
  | .hbm, ⟨24, _⟩ => ⟨S32x2048x32x32, .f32⟩
  | .hbm, ⟨25, _⟩ => ⟨S32x2048x32x32, .f32⟩
  | _, _ => ⟨S32x2048x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S32x32x32 : S_.BroadcastsInDim S32x32x32 (![] : Fin 0 → Fin S32x32x32.rank)
  bcast_S32x32x32_S32x32x32x1_0_1_2 : S32x32x32.BroadcastsInDim S32x32x32x1 (![0, 1, 2] : Fin 3 → Fin S32x32x32x1.rank)
  transposes_S32x32x32x2048_S32x2048x32x32_0_3_1_2 : S32x32x32x2048.Transposes [0, 3, 1, 2] S32x2048x32x32
  gather_S256x2048_S32x32x32x1_S32x32x32x2048_3_0_n_n_0_3_12048_wf : GatherDims.WF S256x2048 S32x32x32x1 S32x32x32x2048 [3] [0] [] [0] [] 3 ![1, 2048]

variable [Facts₀]

def gather_S256x2048_S32x32x32x1_S32x32x32x2048_3_0_n_n_0_3_12048 : GatherDims S256x2048 S32x32x32x1 S32x32x32x2048 where
  offsetDims := [3]
  collapsedSliceDims := [0]
  operandBatchingDims := []
  startIndicesBatchingDims := []
  startIndexMap := [0]
  indexVectorDim := 3
  sliceSizes := ![1, 2048]
  wf := gather_S256x2048_S32x32x32x1_S32x32x32x2048_3_0_n_n_0_3_12048_wf

class Facts : Prop extends Facts₀ where

variable [Facts]
-- ==== Proof.PreFacts.lean ====
/-
  What the precondition says of the inputs. It is a conjunction of four `all`s: every entry of `X`, of `A` and of `B`
  has absolute value below `+∞`, and every slot id is `≥ 0` in the signed order. Read back: the entries of `A` and `B`
  are real numbers, and no slot id is negative. (Nothing is needed of `X`: the result is affine in it with real
  coefficients, and `a · x + β` is the same expression on both sides whatever extended real `x` is.)
-/
import proofs.«425087_j57501022159267_3_alg».proof.Defs
import Idealize.ShloMosaic.Lib.ReduceAll
import Idealize.ShloMosaic.Lib.Affine
import Idealize.ShloMosaic.Lib.ValueIdx
import Idealize.ShloMosaic.PureOps.Ideal.Laws

noncomputable section

namespace Cert.PreFacts

open Idealize.ShloMosaic Cert.Pre_finite_inputs

variable [Cert.Pre_finite_inputs.Facts]
open Cert.Pre_finite_inputs.Facts

instance : Subsingleton S_.Idx := ⟨fun _ _ => funext fun d => d.elim0⟩

/-- An extended real whose absolute value is below `+∞` (the f32 word `0x7F800000`) is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => simp at hlt
  | coe r => exact ⟨r, rfl⟩
  | top => simp at hlt

/-- THE PRECONDITION, READ BACK: the tables hold real numbers and no slot id is negative. -/
theorem of_pre (X : FVec Ideal S32x2048x32x32 .f32) (S : IVec S32x32x32 32) (A B : FVec Ideal S256x2048 .f32)
    (h : fn (F := Ideal) X S A B = fun _ => 1#1) :
    (∀ i, ∃ r : ℝ, A i = (r : EReal)) ∧ (∀ i, ∃ r : ℝ, B i = (r : EReal)) ∧ ∀ i, 0 ≤ (S i).toInt := by
  have h0 := congrFun h ValueIdx.ix0
  dsimp only [fn, fn_part1] at h0
  obtain ⟨h13, h16⟩ := IntOp.andi_eq_one.1 h0
  obtain ⟨h8, h12⟩ := IntOp.andi_eq_one.1 h13
  obtain ⟨_, h7⟩ := IntOp.andi_eq_one.1 h8
  refine ⟨fun i => ?_, fun i => ?_, fun i => ?_⟩
  · exact real_of_abs_lt (A i) (Host.reduce_andi_all _ _ _ _ _ h7 i)
  · exact real_of_abs_lt (B i) (Host.reduce_andi_all _ _ _ _ _ h12 i)
  · have hi := IntOp.cmpi_sge.1 (Host.reduce_andi_all _ _ _ _ _ h16 i)
    exact hi

end Cert.PreFacts

end
-- ==== Proof.LibGatherRows.lean ====
/-
  Row lookup by `stablehlo.gather`: what `table[idx]` lowers to for a rank-2 table `[N, M]` and an integer array
  `idx : [A, B, C]` (carried as `[A, B, C, 1]`): offset axis 3, collapsed axis 0, start index map `[0]`, slice sizes
  `[1, M]`, index vector axis 3. Result element `(a, b, c, j)` is the table at row `idx[a, b, c, 0]` — read as a signed
  integer and clamped into `[0, N − 1]`, as StableHLO's gather clamps every start index — and column `j`.
-/
import Idealize.ShloMosaic.Lib.ValueIdx

noncomputable section

namespace Idealize.ShloMosaic.GatherRows

open Idealize.ShloMosaic Idealize.ShloMosaic.ValueIdx

variable {α : Type}

/-- The dimension numbers of a row lookup, for a table `[N, M]`, start indices `[A, B, C, 1]` and a result
    `[A, B, C, M]`; their conditions `wf` are decided on a program's literal shapes. -/
abbrev rowDims (N M A B C : Nat)
    (wf : GatherDims.WF ⟨2, ![N, M]⟩ ⟨4, ![A, B, C, 1]⟩ ⟨4, ![A, B, C, M]⟩ [3] [0] [] [0] [] 3 ![1, M]) :
    GatherDims ⟨2, ![N, M]⟩ ⟨4, ![A, B, C, 1]⟩ ⟨4, ![A, B, C, M]⟩ where
  offsetDims := [3]
  collapsedSliceDims := [0]
  operandBatchingDims := []
  startIndicesBatchingDims := []
  startIndexMap := [0]
  indexVectorDim := 3
  sliceSizes := ![1, M]
  wf := wf

/-- The start-indices index `[a, b, c, 0]` of result index `(a, b, c, j)`. -/
abbrev rowIdx {A B C M : Nat} (y : (⟨4, ![A, B, C, M]⟩ : Shape).Idx) : (⟨4, ![A, B, C, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- THE ROW LOOKUP READ AT `(a, b, c, j)`: the table at the row the start index names (signed, clamped into
    `[0, N − 1]`) and at column `j`. -/
theorem gather_rows_apply {N M A B C w : Nat} (hN : 0 < N)
    (wf : GatherDims.WF ⟨2, ![N, M]⟩ ⟨4, ![A, B, C, 1]⟩ ⟨4, ![A, B, C, M]⟩ [3] [0] [] [0] [] 3 ![1, M])
    (x : (⟨2, ![N, M]⟩ : Shape).Idx → α) (idx : IVec ⟨4, ![A, B, C, 1]⟩ w) (y : (⟨4, ![A, B, C, M]⟩ : Shape).Idx) :
    Host.gather (rowDims N M A B C wf) x idx y
      = x (ix2 ⟨min (idx (rowIdx y)).toInt.toNat (N - 1), by omega⟩ ⟨(y 3).val, (y 3).isLt⟩) := by
  unfold Host.gather
  congr 1
  funext a
  refine Fin.ext ?_
  match a with
  | ⟨0, _⟩ =>
    show (rowDims N M A B C wf).start y idx 0 + (rowDims N M A B C wf).batchCoord y 0 + (rowDims N M A B C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M A B C wf).startIndexMap from List.mem_singleton.mpr rfl)]
    have hsi : (rowDims N M A B C wf).siIdx y ⟨List.idxOf (0 : Fin 2) (rowDims N M A B C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (rowDims N M A B C wf).start y idx 1 + (rowDims N M A B C wf).batchCoord y 1 + (rowDims N M A B C wf).offCoord y 1 = (y 3).val
    have h1 : (rowDims N M A B C wf).start y idx 1 = 0 := by
      unfold GatherDims.start
      rw [dif_neg (show (1 : Fin 2) ∉ ([0] : List (Fin 2)) by decide)]
    have h3 : (1 : Fin 2) ∈ (rowDims N M A B C wf).sKept :=
      (GatherDims.mem_sKept _ _).mpr ⟨show (1 : Fin 2) ∉ ([0] : List (Fin 2)) by decide, List.not_mem_nil⟩
    rw [h1, GatherDims.batchCoord_eq_zero _ _ _ List.not_mem_nil]
    unfold GatherDims.offCoord
    rw [dif_pos h3]
    simp only [Nat.zero_add]
    rfl

end Idealize.ShloMosaic.GatherRows

end
-- ==== Proof.SlotAffine.lean ====
/-
  The function both programs compute. Inputs: an activation `X : [32, 2048, 32, 32]`, a slot id per pixel
  `S : [32, 32, 32]`, and two tables `A, B : [256, 2048]` (one row per slot, one column per channel). Output at
  `(b, c, h, w)`:   `A[r, c] · X[b, c, h, w] + B[r, c]`,   `r = row S[b, h, w]`,
  where `row s` is the slot id `s` read as a signed integer and clamped into `[0, 255]`.

  The kernel looks rows up by a matrix product with a one-hot matrix: a sum over `k < 512` whose first half carries
  the table entries and whose second half carries a residual that vanishes over the reals. `sum_onehot` is that
  collapse: one term of the sum survives.
-/
import Idealize.ShloMosaic.Lib.ValueIdx
import Idealize.ShloMosaic.PureOps.Ideal

noncomputable section

namespace Cert.SlotAffine

open Idealize.ShloMosaic Idealize.ShloMosaic.ValueIdx

abbrev SX : Shape := ⟨4, ![32, 2048, 32, 32]⟩
abbrev SS : Shape := ⟨3, ![32, 32, 32]⟩
abbrev ST : Shape := ⟨2, ![256, 2048]⟩

/-- The table row a slot id selects: the id as a signed integer, clamped into `[0, 255]`. -/
def row (s : BitVec 32) : Fin 256 := ⟨min s.toInt.toNat 255, by omega⟩

/-- The result, index by index. -/
def G (X : SX.Idx → EReal) (S : SS.Idx → BitVec 32) (A B : ST.Idx → EReal) : SX.Idx → EReal := fun i =>
  A (ix2 (row (S (ix3 (i 0) (i 2) (i 3)))) (i 1)) * X i + B (ix2 (row (S (ix3 (i 0) (i 2) (i 3)))) (i 1))

/-- A sum over `k < 512` of products `L k · R k` in which `L` is `a` on the first 256 positions and zero after, and
    `R` is the indicator of position `r` on the first 256: only the term at `r` is left. -/
theorem sum_onehot (a : Fin 256 → EReal) (r : Fin 256) (L R : Fin 512 → EReal)
    (hL1 : ∀ (k : Fin 512) (h : k.val < 256), L k = a ⟨k.val, h⟩)
    (hL2 : ∀ k : Fin 512, 256 ≤ k.val → L k = 0)
    (hR : ∀ k : Fin 512, k.val < 256 → R k = if k.val = r.val then 1 else 0) :
    ∑ k : Fin 512, L k * R k = a r := by
  have hr : r.val < 512 := by have := r.isLt; omega
  rw [Finset.sum_eq_single (⟨r.val, hr⟩ : Fin 512)]
  · rw [hL1 ⟨r.val, hr⟩ r.isLt, hR ⟨r.val, hr⟩ r.isLt, if_pos rfl, mul_one]
  · intro k _ hk
    by_cases h : k.val < 256
    · rw [hR k h, if_neg (fun e => hk (Fin.ext e)), mul_zero]
    · rw [hL2 k (by omega), zero_mul]
  · intro h; exact absurd (Finset.mem_univ _) h

/-- A finite entry minus itself is zero (false at an infinity). -/
theorem sub_self_of_real {x : EReal} (h : ∃ r : ℝ, x = (r : EReal)) : x - x = 0 := by
  obtain ⟨r, rfl⟩ := h
  rw [← EReal.coe_sub, sub_self, EReal.coe_zero]

/-- For a slot id that is not negative, clipping it into `[0, 255]` with signed `max` and `min` gives the word whose
    value is the clamped row. -/
theorem clip_toNat (s : BitVec 32) (h : 0 ≤ s.toInt) :
    (IntOp.minsi 255#32 (IntOp.maxsi 0#32 s)).toNat = (row s).val := by
  have hs : s.toNat < 2 ^ 31 := by
    rw [BitVec.toInt_eq_toNat_cond] at h
    split at h <;> omega
  have hi : s.toInt = s.toNat := by
    rw [BitVec.toInt_eq_toNat_cond, if_pos (by omega)]
  unfold row
  simp only [hi, Int.toNat_natCast]
  unfold IntOp.minsi IntOp.maxsi
  have h0 : BitVec.slt s 0#32 = false := by
    simp only [BitVec.slt, hi]; simp
  rw [h0]
  simp only [Bool.false_eq_true, if_false]
  by_cases hlt : BitVec.slt 255#32 s = true
  · rw [if_pos hlt]
    have : (255 : Int) < s.toNat := by
      simpa [BitVec.slt, hi] using hlt
    simp; omega
  · rw [if_neg hlt]
    have : ¬ (255 : Int) < s.toNat := by
      simpa [BitVec.slt, hi] using hlt
    omega

end Cert.SlotAffine

end
-- ==== Proof.RefValue.lean ====
/-
  The reference, read at an index. Its result at `(b, c, h, w)` is `a · X[b, c, h, w] + β` with `a`, `β` the entries at
  column `c` of the rows that two row lookups select in the tables. Each lookup first maps a negative id `s` to
  `s + 256` and then clamps; for an id that is not negative the first step does nothing, and the clamped row is
  `row s`. So the reference computes `SlotAffine.G`.
-/
import proofs.«425087_j57501022159267_3_alg».proof.Proof.Gen.ReferenceIdeal.Read
import proofs.«425087_j57501022159267_3_alg».proof.Proof.LibGatherRows
import proofs.«425087_j57501022159267_3_alg».proof.Proof.SlotAffine
import Idealize.ShloMosaic.Lib.Affine

noncomputable section

namespace Cert.ReferenceIdeal.RefValue

open Cert.ReferenceIdeal Cert.ReferenceIdeal.Gen Cert.ReferenceIdeal.Read
open Idealize.ShloMosaic Idealize.ShloMosaic.ValueIdx Idealize.ShloMosaic.GatherRows Cert.SlotAffine

/-- A slot id that is not negative is not below zero in the signed order. -/
theorem slt_zero_of_nonneg (s : BitVec 32) (h : 0 ≤ s.toInt) : IntOp.cmpi .slt s 0#32 = 0#1 := by
  apply eq_zero_of_ne_one
  rw [IntOp.cmpi_slt]
  simp only [BitVec.toInt_zero]
  omega

/-- The first lookup's start indices: the ids themselves, where none is negative. -/
theorem wrapA_eq (S : IVec S32x32x32 32) (hS : ∀ i, 0 ≤ (S i).toInt) (j : S32x32x32.Idx) :
    val_main_v4 (F := Ideal) S j = S j := by
  rw [val_main_v4_apply, val_main_v1_apply, val_main_v0_apply, val_main_c_apply, slt_zero_of_nonneg _ (hS j), select_zero]

/-- The second lookup's start indices, likewise. -/
theorem wrapB_eq (S : IVec S32x32x32 32) (hS : ∀ i, 0 ≤ (S i).toInt) (j : S32x32x32.Idx) :
    val_main_v12 (F := Ideal) S j = S j := by
  rw [val_main_v12_apply, val_main_v9_apply, val_main_v8_apply, val_main_c_1_apply, slt_zero_of_nonneg _ (hS j), select_zero]

/-- The start-indices position a result position `(b, h, w, c)` of a lookup reads. -/
theorem rowIdx_eq (b h w : Fin 32) (c : Fin 2048) :
    idx_main_v5 (rowIdx (ix4 b h w c : S32x32x32x2048.Idx)) = ix3 b h w := by
  funext a
  match a with
  | ⟨0, _⟩ => rfl
  | ⟨1, _⟩ => rfl
  | ⟨2, _⟩ => rfl

/-- The first row lookup at `(b, h, w, c)`: table `A` at row `row S[b, h, w]`, column `c`. -/
theorem lookupA_apply (S : IVec S32x32x32 32) (A : FVec Ideal S256x2048 .f32) (hS : ∀ i, 0 ≤ (S i).toInt)
    (b h w : Fin 32) (c : Fin 2048) :
    val_main_v6 (F := Ideal) S A (ix4 b h w c) = A (ix2 (row (S (ix3 b h w))) c) := by
  unfold val_main_v6
  show Host.gather (rowDims 256 2048 32 32 32 Facts₀.gather_S256x2048_S32x32x32x1_S32x32x32x2048_3_0_n_n_0_3_12048_wf) A _ _ = _
  rw [gather_rows_apply (by decide)]
  refine congrArg A (funext fun a => Fin.ext ?_)
  match a with
  | ⟨0, _⟩ =>
    show min (val_main_v5 (F := Ideal) S (rowIdx (ix4 b h w c))).toInt.toNat (256 - 1) = (row (S (ix3 b h w))).val
    rw [val_main_v5_apply, rowIdx_eq, wrapA_eq S hS]
    rfl
  | ⟨1, _⟩ => rfl

/-- The second row lookup at `(b, h, w, c)`. -/
theorem lookupB_apply (S : IVec S32x32x32 32) (B : FVec Ideal S256x2048 .f32) (hS : ∀ i, 0 ≤ (S i).toInt)
    (b h w : Fin 32) (c : Fin 2048) :
    val_main_v14 (F := Ideal) S B (ix4 b h w c) = B (ix2 (row (S (ix3 b h w))) c) := by
  unfold val_main_v14
  show Host.gather (rowDims 256 2048 32 32 32 Facts₀.gather_S256x2048_S32x32x32x1_S32x32x32x2048_3_0_n_n_0_3_12048_wf) B _ _ = _
  rw [gather_rows_apply (by decide)]
  refine congrArg B (funext fun a => Fin.ext ?_)
  match a with
  | ⟨0, _⟩ =>
    show min (val_main_v13 (F := Ideal) S (rowIdx (ix4 b h w c))).toInt.toNat (256 - 1) = (row (S (ix3 b h w))).val
    rw [val_main_v13_apply, show idx_main_v13 (rowIdx (ix4 b h w c : S32x32x32x2048.Idx)) = ix3 b h w from rowIdx_eq b h w c,
      wrapB_eq S hS]
    rfl
  | ⟨1, _⟩ => rfl

/-- The transposes move the channel axis from last to second. -/
theorem perm_eq (b : Fin 32) (c : Fin 2048) (h w : Fin 32) :
    idx_main_v7 (ix4 b c h w : S32x2048x32x32.Idx) = ix4 b h w c := by
  funext a
  match a with
  | ⟨0, _⟩ => rfl
  | ⟨1, _⟩ => rfl
  | ⟨2, _⟩ => rfl
  | ⟨3, _⟩ => rfl

/-- THE REFERENCE IS `G`, where no slot id is negative. -/
theorem ref_eq (X : FVec Ideal S32x2048x32x32 .f32) (S : IVec S32x32x32 32) (A B : FVec Ideal S256x2048 .f32)
    (hS : ∀ i, 0 ≤ (S i).toInt) :
    val_main_v17 (F := Ideal) X S A B = G X S A B := by
  funext i
  obtain ⟨b, c, h, w, rfl⟩ : ∃ (b : Fin 32) (c : Fin 2048) (h w : Fin 32), i = ix4 b c h w :=
    ⟨i 0, i 1, i 2, i 3, eq_ix4 i⟩
  rw [val_main_v17_apply, val_main_v16_apply, val_main_v7_apply, val_main_v15_apply]
  rw [show idx_main_v15 (ix4 b c h w : S32x2048x32x32.Idx) = ix4 b h w c from perm_eq b c h w, perm_eq,
    lookupA_apply S A hS, lookupB_apply S B hS]
  rfl

end Cert.ReferenceIdeal.RefValue

end
-- ==== Proof.OneHot.lean ====
/-
  The one-hot matrix the kernel builds from a block's slot ids. Entry `(k, q)` of the `[256, 1024]` matrix is `1` when
  the slot id of pixel `q` is `k` and `0` otherwise (a row counter compared with the ids, the bit widened to a word
  and converted to a float: `0` or `1` exactly). The kernel stacks the matrix on itself, so entry `(k, q)` of the
  `[512, 1024]` matrix is entry `(k mod 256, q)` of the first.
-/
import proofs.«425087_j57501022159267_3_alg».proof.Proof.Gen.KernelIdeal
import Idealize.ShloMosaic.Lib.ValueIdx
import Idealize.ShloMosaic.Lib.ValueLayout
import Idealize.ShloMosaic.Lib.Pipeline.Value
import Idealize.ShloMosaic.Lib.Affine
import Idealize.ShloMosaic.PureOps.Ideal

noncomputable section

namespace Cert.KernelIdeal.OneHot

open Cert.KernelIdeal Cert.KernelIdeal.Gen
open Idealize.ShloMosaic Idealize.ShloMosaic.ValueIdx

/-- A row number below 256, as a 32-bit word, is the word `s` exactly when it is `s`'s value. -/
theorem ofNat_eq_iff (k : Fin 256) (s : BitVec 32) : BitVec.ofNat 32 k.val = s ↔ k.val = s.toNat := by
  have hk : k.val < 2 ^ 32 := by have := k.isLt; omega
  constructor
  · intro e; rw [← e, BitVec.toNat_ofNat, Nat.mod_eq_of_lt hk]
  · intro e; apply BitVec.eq_of_toNat_eq; rw [BitVec.toNat_ofNat, Nat.mod_eq_of_lt hk, e]

/-- The comparison bit, widened and converted: `1` on equality, else `0`. -/
theorem hot_scalar (k : Fin 256) (s : BitVec 32) :
    FloatOps.sitofp (F := Ideal) .f32 ((IntOp.cmpi .eq (BitVec.ofNat 32 k.val) s).setWidth 32)
      = if k.val = s.toNat then (1 : EReal) else 0 := by
  show (((((IntOp.cmpi .eq (BitVec.ofNat 32 k.val) s).setWidth 32).toInt : ℝ)) : EReal) = _
  by_cases h : k.val = s.toNat
  · rw [if_pos h, IntOp.cmpi_eq.2 ((ofNat_eq_iff k s).2 h)]
    have e : ((1#1 : BitVec 1).setWidth 32).toInt = 1 := by decide
    rw [e]; simp
  · rw [if_neg h, eq_zero_of_ne_one (fun e => h ((ofNat_eq_iff k s).1 (IntOp.cmpi_eq.1 e)))]
    have e : ((0#1 : BitVec 1).setWidth 32).toInt = 0 := by decide
    rw [e]; simp

/-- Entry `(k, q)` of the one-hot matrix built from the ids `v3 : [1024]`. -/
theorem onehot_apply (v3 : IVec S1024 32) (k : Fin 256) (q : Fin 1024) :
    (truncf .bf16 (sitofp .f32 (extui 32 (cmpi .eq (iota .tc S256x1024 32 [0] iota_S256x1024_d0_w32)
        (broadcastTo S256x1024 (shapeCast S1x1024 v3 shapeCasts_S1024_S1x1024) broadcasts_S1x1024_S256x1024)) natLt_1_32)
        : FVec Ideal S256x1024 .f32) bitsLt_bf16_f32 : FVec Ideal S256x1024 .bf16) (ix2 k q)
      = if k.val = (v3 (ix1 q)).toNat then (1 : EReal) else 0 := by
  show FloatOps.sitofp (F := Ideal) .f32 ((IntOp.cmpi .eq (iota .tc S256x1024 32 [0] iota_S256x1024_d0_w32 (ix2 k q))
      (broadcastTo S256x1024 (shapeCast S1x1024 v3 shapeCasts_S1024_S1x1024) broadcasts_S1x1024_S256x1024 (ix2 k q))).setWidth 32) = _
  rw [iota_single_apply, broadcastTo_1b_ab_apply, shapeCast_a_1a_apply]
  exact hot_scalar k _

/-- A `[256, 1024]` matrix stacked on itself, at `(k, q)` with `k < 512`: the matrix at `(k mod 256, q)`. -/
theorem stack_apply (v : FVec Ideal S256x1024 .bf16) (k : Fin 512) (q : Fin 1024) :
    concatenate S512x1024 0 [⟨S256x1024, v⟩, ⟨S256x1024, v⟩] concatenates_S256x1024_S256x1024_S512x1024_d0 (ix2 k q)
      = v (ix2 ⟨k.val % 256, Nat.mod_lt _ (by decide)⟩ q) := by
  by_cases h : k.val < 256
  · rw [concatenate_pair_apply_left (0 : Fin S512x1024.rank) v v _ (ix2 k q) rfl (ix2 ⟨k.val, h⟩ q)
      (fun b => match b with | ⟨0, _⟩ => rfl | ⟨1, _⟩ => rfl)]
    congr 2
    exact Fin.ext (Nat.mod_eq_of_lt h).symm
  · have hk : k.val < 512 := k.isLt
    rw [concatenate_pair_apply_right (0 : Fin S512x1024.rank) v v _ (ix2 k q) rfl rfl (ix2 ⟨k.val - 256, by omega⟩ q)
      (fun b hb => match b, hb with
        | ⟨0, _⟩, hb => absurd rfl hb
        | ⟨1, _⟩, _ => rfl)
      (by show k.val - 256 + 256 = k.val; omega)]
    congr 2
    exact Fin.ext (by show k.val - 256 = k.val % 256; omega)

/-- A block's ids `[1, 1, 1024]` flattened to `[1024]`: position `q` reads `(0, 0, q)`. -/
theorem flat_apply (x1 : Vec Ideal S1x1x1024 .i32) (q : Fin 1024) :
    (shapeCast S1024 x1 shapeCasts_S1x1x1024_S1024 : IVec S1024 32) (ix1 q) = x1 (ix3 (0 : Fin 1) (0 : Fin 1) q) :=
  shapeCast_apply x1 shapeCasts_S1x1x1024_S1024 _ _ (by
    rw [Shape.rowMajor_val_three, Shape.rowMajor_val_one]
    show (0 * 1 + 0) * 1024 + q.val = q.val
    omega)

end Cert.KernelIdeal.OneHot

end
-- ==== Proof.MatmulRead.lean ====
/-
  The kernel's matrix product read at an entry. A `[1024, 512]` left operand times a `[512, 1024]` right operand into a
  zero accumulator: over the extended reals entry `(p, q)` is the plain sum over `k < 512` of `l[p, k] · r[k, q]` —
  nothing is rounded and no order of accumulation is left in it.
-/
import proofs.«425087_j57501022159267_3_alg».proof.Proof.Gen.KernelIdeal
import Idealize.ShloMosaic.Lib.ValueIdx
import Idealize.ShloMosaic.PureOps.Ideal.Laws

noncomputable section

namespace Cert.KernelIdeal.MatmulRead

open Cert.KernelIdeal Cert.KernelIdeal.Gen
open Idealize.ShloMosaic Idealize.ShloMosaic.ValueIdx

/-- The left operand's row is the output's row. -/
theorem lhs_ax0 (j : S1024x1024.Idx) (k : dot_S1024x512_S512x1024_S1024x1024_1_0_0_1_n_n.contr.Idx) :
    (dot_S1024x512_S512x1024_S1024x1024_1_0_0_1_n_n.lhsIdx j k 0).val = (j 0).val := by
  unfold DotDims.lhsIdx
  rw [dif_neg (show ¬(0 : Fin S1024x512.rank) ∈ dot_S1024x512_S512x1024_S1024x1024_1_0_0_1_n_n.lhsBatch from List.not_mem_nil),
    dif_pos (show (0 : Fin S1024x512.rank) ∈ dot_S1024x512_S512x1024_S1024x1024_1_0_0_1_n_n.lhsNonContracting from List.mem_singleton.mpr rfl)]
  rfl

/-- The left operand's column is the contraction position. -/
theorem lhs_ax1 (j : S1024x1024.Idx) (k : dot_S1024x512_S512x1024_S1024x1024_1_0_0_1_n_n.contr.Idx) :
    (dot_S1024x512_S512x1024_S1024x1024_1_0_0_1_n_n.lhsIdx j k 1).val = (k ⟨0, Nat.one_pos⟩).val :=
  DotDims.lhsIdx_val_of_single _ (cl := (1 : Fin S1024x512.rank)) rfl j k

/-- The right operand's row is the contraction position. -/
theorem rhs_ax0 (j : S1024x1024.Idx) (k : dot_S1024x512_S512x1024_S1024x1024_1_0_0_1_n_n.contr.Idx) :
    (dot_S1024x512_S512x1024_S1024x1024_1_0_0_1_n_n.rhsIdx j k 0).val = (k ⟨0, Nat.one_pos⟩).val :=
  DotDims.rhsIdx_val_of_single _ (cr := (0 : Fin S512x1024.rank)) rfl j k

/-- The right operand's column is the output's column. -/
theorem rhs_ax1 (j : S1024x1024.Idx) (k : dot_S1024x512_S512x1024_S1024x1024_1_0_0_1_n_n.contr.Idx) :
    (dot_S1024x512_S512x1024_S1024x1024_1_0_0_1_n_n.rhsIdx j k 1).val = (j 1).val := by
  unfold DotDims.rhsIdx
  rw [dif_neg (show ¬(1 : Fin S512x1024.rank) ∈ dot_S1024x512_S512x1024_S1024x1024_1_0_0_1_n_n.rhsBatch from List.not_mem_nil),
    dif_pos (show (1 : Fin S512x1024.rank) ∈ dot_S1024x512_S512x1024_S1024x1024_1_0_0_1_n_n.rhsNonContracting from List.mem_singleton.mpr rfl)]
  rfl

/-- THE PRODUCT AT `(p, q)`: the sum over `k < 512` of `l[p, k] · r[k, q]`. -/
theorem mm_apply (l : FVec Ideal S1024x512 .bf16) (r : FVec Ideal S512x1024 .bf16) (p q : Fin 1024) :
    matmul dot_S1024x512_S512x1024_S1024x1024_1_0_0_1_n_n none l r (constant (F := Ideal) S1024x1024 .f32 0x00000000#32) (ix2 p q)
      = ∑ k : Fin 512, l (ix2 p k) * r (ix2 k q) := by
  refine (Ideal.matmul_constant_zero_apply dot_S1024x512_S512x1024_S1024x1024_1_0_0_1_n_n none l r (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q)
      ((contrEquiv1 dot_S1024x512_S512x1024_S1024x1024_1_0_0_1_n_n 512 rfl rfl).symm k) = ix2 p k := by
    funext a; refine Fin.ext ?_
    match a with
    | ⟨0, _⟩ => exact lhs_ax0 _ _
    | ⟨1, _⟩ => exact (lhs_ax1 _ _).trans hk
  have er : dot_S1024x512_S512x1024_S1024x1024_1_0_0_1_n_n.rhsIdx (ix2 p q)
      ((contrEquiv1 dot_S1024x512_S512x1024_S1024x1024_1_0_0_1_n_n 512 rfl rfl).symm k) = ix2 k q := by
    funext a; refine Fin.ext ?_
    match a with
    | ⟨0, _⟩ => exact (rhs_ax0 _ _).trans hk
    | ⟨1, _⟩ => exact rhs_ax1 _ _
  rw [el, er]

end Cert.KernelIdeal.MatmulRead

end
-- ==== Proof.Payload.lean ====
/-
  What the kernel body stores, at one entry. From a block `x0 : [1, 1024, 1024]` of the activation, the block's slot
  ids `x1 : [1, 1, 1024]` and a channel tile of the two doubled tables `x2, x3 : [1024, 512]`, entry `(0, p, q)` of
  the stored block is
      `(∑ k < 512, x2[p, k] · e k) · x0[0, p, q] + ∑ k < 512, x3[p, k] · e k`
  where `e k` is `1` when `k mod 256` is the slot id of pixel `q`, else `0`: two matrix products with the stacked
  one-hot matrix, then a multiply and an add, entry by entry.
-/
import proofs.«425087_j57501022159267_3_alg».proof.Proof.Gen.KernelIdeal.Skeleton
import proofs.«425087_j57501022159267_3_alg».proof.Proof.OneHot
import proofs.«425087_j57501022159267_3_alg».proof.Proof.MatmulRead

noncomputable section

namespace Cert.KernelIdeal.Payload

open Cert.KernelIdeal Cert.KernelIdeal.Gen Cert.KernelIdeal.OneHot Cert.KernelIdeal.MatmulRead
open Idealize.ShloMosaic Idealize.ShloMosaic.ValueIdx

/-- Column `q` of the stacked one-hot matrix, for the slot word `s` of pixel `q`: `1` at the two positions
    `k ≡ s (mod 256)`, `0` elsewhere. -/
def hotCol (s : BitVec 32) (k : Fin 512) : EReal := if k.val % 256 = s.toNat then 1 else 0

/-- THE STORED BLOCK AT `(0, p, q)`. -/
theorem pay_apply (x0 : Vec Ideal S1x1024x1024 .f32) (x1 : Vec Ideal S1x1x1024 .i32)
    (x2 x3 : Vec Ideal S1024x512 .bf16) (p q : Fin 1024) :
    k0_pay1 (F := Ideal) x0 x1 x2 x3 (ix3 (0 : Fin 1) p q)
      = (∑ k : Fin 512, x2 (ix2 p k) * hotCol (x1 (ix3 (0 : Fin 1) (0 : Fin 1) q)) k) * x0 (ix3 (0 : Fin 1) p q)
        + ∑ k : Fin 512, x3 (ix2 p k) * hotCol (x1 (ix3 (0 : Fin 1) (0 : Fin 1) q)) k := by
  unfold k0_pay1
  dsimp only
  rw [shapeCast_ab_1ab_apply, addf_apply, mulf_apply, shapeCast_1ab_ab_apply, mm_apply, mm_apply]
  simp only [shapeCast_self, stack_apply]
  have hcol : ∀ k : Fin 512, _ = hotCol (x1 (ix3 (0 : Fin 1) (0 : Fin 1) q)) k := fun k =>
    (onehot_apply (shapeCast S1024 x1 shapeCasts_S1x1x1024_S1024) ⟨k.val % 256, Nat.mod_lt _ (by decide)⟩ q).trans
      (by rw [flat_apply]; rfl)
  exact congrArg₂ (· + ·)
    (congrArg (· * x0 (ix3 (0 : Fin 1) p q))
      (Finset.sum_congr rfl fun k _ => congrArg (x2 (ix2 p k) * ·) (hcol k)))
    (Finset.sum_congr rfl fun k _ => congrArg (x3 (ix2 p k) * ·) (hcol k))

end Cert.KernelIdeal.Payload

end
-- ==== Proof.LibTypedRef.lean ====
/-
  A typed reference's two transports are inverse.

  A typed reference `x` to a buffer of a tensor value of type `T` carries contents at `T` to contents of the buffer
  (`x.toBuf`) and back (`x.ofBuf`), each a transport along `x.ty_eq : x.ref.ty = T`. Going there and back is the
  identity, whatever the reference: replacing `T` by the buffer's type makes both transports the identity.
  A program that inlines a called function reads each of the callee's values through such a pair.
-/
import Idealize.ShloMosaic.Lib.StableHlo

namespace Cert.Lib.TypedRef

open Idealize.ShloMosaic

/-- Contents carried to a typed reference's buffer and back are the contents. -/
theorem ofBuf_toBuf {sig : RefSig} {T : BufTy} {Val : EltTy → Type} (x : StableHlo.TRef sig T) (v : T.Contents Val) :
    x.ofBuf (x.toBuf v) = v := by
  obtain ⟨r, hty, h1, h2⟩ := x
  subst hty
  rfl

/-- Contents of the buffer carried to the value's type and back are the contents. -/
theorem toBuf_ofBuf {sig : RefSig} {T : BufTy} {Val : EltTy → Type} (x : StableHlo.TRef sig T) (v : x.ref.ty.Contents Val) :
    x.toBuf (x.ofBuf v) = v := by
  obtain ⟨r, hty, h1, h2⟩ := x
  subst hty
  rfl

end Cert.Lib.TypedRef
-- ==== Proof.HostArrays.lean ====
/-
  The arrays the region finds. Four of the kernel's five operands are written by host operations before the launch:
    * the activation reshaped `[32, 2048, 32, 32] → [32, 2048, 1024]` (the two pixel axes merged),
    * the slot ids clipped into `[0, 255]` (signed `max` with 0, then `min` with 255) and reshaped
      `[32, 32, 32] → [32, 1, 1024]`,
    * each table transposed to `[2048, 256]` and doubled along the second axis to `[2048, 512]`: first the table
      itself (a change of float format: the identity here), then the table minus itself after a round trip through
      the narrower format — over the reals, zero wherever the entry is finite.
  This module names those terms, shows the region's arrays are them, and reads each at an index.
-/
import proofs.«425087_j57501022159267_3_alg».proof.Proof.Gen.KernelIdeal.Frame
import proofs.«425087_j57501022159267_3_alg».proof.Proof.LibTypedRef
import proofs.«425087_j57501022159267_3_alg».proof.Proof.SlotAffine
import Idealize.ShloMosaic.Lib.StableHlo.Run
import Idealize.ShloMosaic.Lib.ValueLayout
import Idealize.ShloMosaic.Lib.Pipeline.Value
import Idealize.ShloMosaic.PureOps.Ideal

noncomputable section

namespace Cert.KernelIdeal.HostArrays

open Cert.KernelIdeal Cert.KernelIdeal.Gen
open Idealize.ShloMosaic Idealize.ShloMosaic.TcCoe Idealize.SL.Sem Idealize.ShloMosaic.StableHlo Idealize.ShloMosaic.ValueIdx
open Cert.SlotAffine (row sub_self_of_real)

variable (m : (ℓ : Loc nD τ sig) → Buf (Elt Ideal) ℓ)

/-- The slot ids clipped into `[0, 255]`. -/
def clipped (S : IVec S32x32x32 32) : IVec S32x32x32 32 :=
  minsi (broadcastInDim S32x32x32 ![] bcast_S_S32x32x32 (constantI S_ 32 255#32))
    (maxsi (broadcastInDim S32x32x32 ![] bcast_S_S32x32x32 (constantI S_ 32 0#32)) S)

/-- A table transposed and doubled: itself, then itself minus its round trip through the narrow format. -/
def doubled (A : FVec Ideal S256x2048 .f32) : FVec Ideal S2048x512 .bf16 :=
  concatenate S2048x512 1
    [⟨S2048x256, truncf .bf16 (transpose S2048x256 [1, 0] A transposes_S256x2048_S2048x256_1_0) bitsLt_bf16_f32⟩,
      ⟨S2048x256, truncf .bf16
        (subf (transpose S2048x256 [1, 0] A transposes_S256x2048_S2048x256_1_0)
          (extf .f32 (truncf .bf16 (transpose S2048x256 [1, 0] A transposes_S256x2048_S2048x256_1_0) bitsLt_bf16_f32)
            bitsLt_bf16_f32))
        bitsLt_bf16_f32⟩]
    concatenates_S2048x256_S2048x256_S2048x512_d1

/-! ## The region's arrays are those terms -/

theorem V_x (c : Dev nD) :
    (V m c main_v0 : S32x2048x1024.Idx → EReal)
      = shapeCast S32x2048x1024 (m ((c : Thread nD τ).loc main_arg0)) shapeCasts_S32x2048x32x32_S32x2048x1024 := by
  dsimp only [V, V0]
  simp only [hostOps0, hostOps0_1, hostOps0_2, List.flatten_cons, List.flatten_nil, List.append_nil, List.cons_append,
    List.nil_append]
  after_results
  rfl

theorem V_slot (c : Dev nD) :
    (V m c main_v2 : S32x1x1024.Idx → BitVec 32)
      = shapeCast S32x1x1024 (clipped (m ((c : Thread nD τ).loc main_arg1))) shapeCasts_S32x32x32_S32x1x1024 := by
  dsimp only [V, V0]
  simp only [hostOps0, hostOps0_1, hostOps0_2, List.flatten_cons, List.flatten_nil, List.append_nil, List.cons_append,
    List.nil_append]
  after_results
  simp only [Cert.Lib.TypedRef.ofBuf_toBuf, Cert.Lib.TypedRef.toBuf_ofBuf]
  rfl

theorem V_a (c : Dev nD) :
    (V m c main_v13 : S2048x512.Idx → EReal) = doubled (m ((c : Thread nD τ).loc main_arg2)) := by
  dsimp only [V, V0]
  simp only [hostOps0, hostOps0_1, hostOps0_2, List.flatten_cons, List.flatten_nil, List.append_nil, List.cons_append,
    List.nil_append]
  after_results
  rfl

theorem V_b (c : Dev nD) :
    (V m c main_v14 : S2048x512.Idx → EReal) = doubled (m ((c : Thread nD τ).loc main_arg3)) := by
  dsimp only [V, V0]
  simp only [hostOps0, hostOps0_1, hostOps0_2, List.flatten_cons, List.flatten_nil, List.append_nil, List.cons_append,
    List.nil_append]
  after_results
  rfl

/-! ## Each read at an index -/

/-- Pixel `p < 1024` of the merged axis is pixel `(p / 32, p mod 32)`. -/
theorem merged_apply {α : Type} (X : S32x2048x32x32.Idx → α) (b : Fin 32) (c : Fin 2048) (p : Fin 1024) :
    shapeCast S32x2048x1024 X shapeCasts_S32x2048x32x32_S32x2048x1024 (ix3 b c p)
      = X (ix4 b c ⟨p.val / 32, by have := p.isLt; omega⟩ ⟨p.val % 32, Nat.mod_lt _ (by decide)⟩) :=
  Idealize.ShloMosaic.shapeCast_apply X shapeCasts_S32x2048x32x32_S32x2048x1024 _ _ (by
    rw [Shape.rowMajor_val_four, Shape.rowMajor_val_three]
    show ((b.val * 2048 + c.val) * 32 + p.val / 32) * 32 + p.val % 32 = (b.val * 2048 + c.val) * 1024 + p.val
    omega)

/-- The clipped ids of a batch, as a row: pixel `p` reads the clipped id of pixel `(p / 32, p mod 32)`. -/
theorem slotrow_apply (S : IVec S32x32x32 32) (b : Fin 32) (p : Fin 1024) :
    shapeCast S32x1x1024 (clipped S) shapeCasts_S32x32x32_S32x1x1024 (ix3 b (0 : Fin 1) p)
      = IntOp.minsi 255#32 (IntOp.maxsi 0#32
          (S (ix3 b ⟨p.val / 32, by have := p.isLt; omega⟩ ⟨p.val % 32, Nat.mod_lt _ (by decide)⟩))) :=
  Idealize.ShloMosaic.shapeCast_apply (clipped S) shapeCasts_S32x32x32_S32x1x1024 _
    (ix3 b ⟨p.val / 32, by have := p.isLt; omega⟩ ⟨p.val % 32, Nat.mod_lt _ (by decide)⟩) (by
    rw [Shape.rowMajor_val_three, Shape.rowMajor_val_three]
    show (b.val * 32 + p.val / 32) * 32 + p.val % 32 = (b.val * 1 + 0) * 1024 + p.val
    omega)

/-- The doubled table at `(c, k)`, first half: the table's entry at row `k`, column `c`. -/
theorem doubled_left (A : FVec Ideal S256x2048 .f32) (c : Fin 2048) (k : Fin 512) (h : k.val < 256) :
    doubled A (ix2 c k) = A (ix2 ⟨k.val, h⟩ c) := by
  unfold doubled
  rw [concatenate_pair_apply_left (s₁ := S2048x256) (s₂ := S2048x256) (1 : Fin S2048x512.rank) _ _ _ (ix2 c k) rfl (ix2 c ⟨k.val, h⟩)
    (fun b => match b with | ⟨0, _⟩ => rfl | ⟨1, _⟩ => rfl)]
  rw [truncf_apply, transpose_ix2_apply]

/-- The doubled table at `(c, k)`, second half: zero, where the table's entries are real numbers. -/
theorem doubled_right (A : FVec Ideal S256x2048 .f32) (hA : ∀ i, ∃ r : ℝ, A i = (r : EReal)) (c : Fin 2048) (k : Fin 512)
    (h : 256 ≤ k.val) : doubled A (ix2 c k) = 0 := by
  have hk : k.val < 512 := k.isLt
  unfold doubled
  rw [concatenate_pair_apply_right (s₁ := S2048x256) (s₂ := S2048x256) (1 : Fin S2048x512.rank) _ _ _ (ix2 c k) rfl rfl (ix2 c ⟨k.val - 256, by omega⟩)
    (fun b hb => match b, hb with
      | ⟨0, _⟩, _ => rfl
      | ⟨1, _⟩, hb => absurd rfl hb)
    (by show k.val - 256 + 256 = k.val; omega)]
  rw [truncf_apply, subf_apply, extf_apply, truncf_apply, transpose_ix2_apply]
  exact sub_self_of_real (hA _)

end Cert.KernelIdeal.HostArrays

end
-- ==== Proof.Blocks.lean ====
/-
  From blocks to the array. The grid has 64 points `t = (ci, bi)`: a channel tile `ci < 2` of 1024 channels and a
  batch `bi < 32`. At point `t` the body reads block `(bi, ci, 0)` of the activation, block `(bi, 0, 0)` of the
  clipped ids and block `(ci, 0)` of each doubled table, and writes block `(bi, ci, 0)` of the result. Entry
  `(0, p, q)` of what it writes is `G` at batch `bi`, channel `1024 · ci + p`, pixel `q`:
    * the two sums over `k < 512` collapse to one table entry each (`lookup_sum`: the doubled table is the table on
      the first half and zero on the second, the one-hot column is the indicator of the clipped id, and the clipped
      id of an id that is not negative is its clamped row);
    * the block reads are reads of the whole arrays at the block's offset.
  The 64 result blocks tile the result array, so it ends holding `G` with its two pixel axes merged.
-/
import proofs.«425087_j57501022159267_3_alg».proof.Proof.Gen.KernelIdeal.Frame
import proofs.«425087_j57501022159267_3_alg».proof.Proof.Payload
import proofs.«425087_j57501022159267_3_alg».proof.Proof.HostArrays
import proofs.«425087_j57501022159267_3_alg».proof.Proof.SlotAffine
import Idealize.ShloMosaic.Lib.Pipeline.Value

set_option maxRecDepth 16384

noncomputable section

namespace Cert.KernelIdeal.Blocks

open Cert.KernelIdeal Cert.KernelIdeal.Gen Cert.KernelIdeal.Payload Cert.KernelIdeal.HostArrays
open Idealize.ShloMosaic Idealize.ShloMosaic.TcCoe Idealize.SL.Sem Idealize.ShloMosaic.ValueIdx
open Idealize.ShloMosaic.Pipeline (Dat)
open Cert.SlotAffine (G row sum_onehot clip_toNat)

variable (m : (ℓ : Loc nD τ sig) → Buf (Elt Ideal) ℓ)

/-- `G` with the two pixel axes merged into one of 1024. -/
def G3 (X : FVec Ideal S32x2048x32x32 .f32) (S : IVec S32x32x32 32) (A B : FVec Ideal S256x2048 .f32) :
    S32x2048x1024.Idx → EReal :=
  shapeCast S32x2048x1024 (G X S A B) shapeCasts_S32x2048x32x32_S32x2048x1024

/-- A ROW LOOKUP BY ONE-HOT PRODUCT: the sum over `k < 512` of the doubled table's row `c` against the one-hot column
    of a clipped id is the table at the id's clamped row — for real table entries and an id that is not negative. -/
theorem lookup_sum (A : FVec Ideal S256x2048 .f32) (hA : ∀ i, ∃ r : ℝ, A i = (r : EReal)) (s : BitVec 32)
    (hs : 0 ≤ s.toInt) (c : Fin 2048) :
    ∑ k : Fin 512, doubled A (ix2 c k) * hotCol (IntOp.minsi 255#32 (IntOp.maxsi 0#32 s)) k = A (ix2 (row s) c) :=
  sum_onehot (fun r => A (ix2 r c)) (row s) (fun k => doubled A (ix2 c k))
    (hotCol (IntOp.minsi 255#32 (IntOp.maxsi 0#32 s)))
    (fun k h => doubled_left A c k h) (fun k h => doubled_right A hA c k h)
    (fun k h => by unfold hotCol; rw [Nat.mod_eq_of_lt h, clip_toNat s hs])

/-- ONE ENTRY OF ONE POINT: if the four blocks are the whole arrays read at batch `b` and channel offset `c0`, the
    stored entry `(0, p, q)` is `G` (pixel axes merged) at `(b, c0 + p, q)`. -/
theorem point_eq (X : FVec Ideal S32x2048x32x32 .f32) (S : IVec S32x32x32 32) (A B : FVec Ideal S256x2048 .f32)
    (hA : ∀ i, ∃ r : ℝ, A i = (r : EReal)) (hB : ∀ i, ∃ r : ℝ, B i = (r : EReal)) (hS : ∀ i, 0 ≤ (S i).toInt)
    (x0 : Vec Ideal S1x1024x1024 .f32) (x1 : Vec Ideal S1x1x1024 .i32) (x2 x3 : Vec Ideal S1024x512 .bf16)
    (b : Fin 32) (c0 : Nat) (hc0 : c0 + 1024 ≤ 2048)
    (h0 : ∀ p q : Fin 1024, x0 (ix3 (0 : Fin 1) p q)
      = shapeCast S32x2048x1024 X shapeCasts_S32x2048x32x32_S32x2048x1024 (ix3 b ⟨c0 + p.val, by have := p.isLt; omega⟩ q))
    (h1 : ∀ q : Fin 1024, x1 (ix3 (0 : Fin 1) (0 : Fin 1) q)
      = shapeCast S32x1x1024 (clipped S) shapeCasts_S32x32x32_S32x1x1024 (ix3 b (0 : Fin 1) q))
    (h2 : ∀ (p : Fin 1024) (k : Fin 512), x2 (ix2 p k) = doubled A (ix2 ⟨c0 + p.val, by have := p.isLt; omega⟩ k))
    (h3 : ∀ (p : Fin 1024) (k : Fin 512), x3 (ix2 p k) = doubled B (ix2 ⟨c0 + p.val, by have := p.isLt; omega⟩ k))
    (p q : Fin 1024) :
    k0_pay1 (F := Ideal) x0 x1 x2 x3 (ix3 (0 : Fin 1) p q)
      = G3 X S A B (ix3 b ⟨c0 + p.val, by have := p.isLt; omega⟩ q) := by
  rw [pay_apply]
  simp only [h0, h1, h2, h3]
  rw [slotrow_apply, merged_apply, lookup_sum A hA _ (hS _), lookup_sum B hB _ (hS _)]
  unfold G3
  rw [merged_apply]
  rfl

/-! ## The region's arrays and blocks, named at their literal types -/

abbrev Xm (c : Dev nD) : FVec Ideal S32x2048x32x32 .f32 := m ((c : Thread nD τ).loc main_arg0)
abbrev Sm (c : Dev nD) : IVec S32x32x32 32 := m ((c : Thread nD τ).loc main_arg1)
abbrev Am (c : Dev nD) : FVec Ideal S256x2048 .f32 := m ((c : Thread nD τ).loc main_arg2)
abbrev Bm (c : Dev nD) : FVec Ideal S256x2048 .f32 := m ((c : Thread nD τ).loc main_arg3)

abbrev blk0 (c : Dev nD) (t : Fin cfg0.N) : Vec Ideal S1x1024x1024 .f32 := iblk m c 0 t
abbrev blk1 (c : Dev nD) (t : Fin cfg0.N) : Vec Ideal S1x1x1024 .i32 := iblk m c 1 t
abbrev blk2 (c : Dev nD) (t : Fin cfg0.N) : Vec Ideal S1024x512 .bf16 := iblk m c 2 t
abbrev blk3 (c : Dev nD) (t : Fin cfg0.N) : Vec Ideal S1024x512 .bf16 := iblk m c 3 t

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the activation's block moves with the result's; the ids' block
    follows the result's batch; each table's block follows the result's channel tile; and the result's block indices
    stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0
    ∧ win0_1.index t (2 : Fin 3) = 0
    ∧ win0_2.index t (0 : Fin 2) = win0_4.index t (1 : Fin 3) ∧ win0_2.index t (1 : Fin 2) = 0
    ∧ win0_3.index t (0 : Fin 2) = win0_4.index t (1 : Fin 3) ∧ win0_3.index t (1 : Fin 2) = 0
    ∧ win0_4.index t (2 : Fin 3) = 0 ∧ win0_4.index t (0 : Fin 3) < 32 ∧ win0_4.index t (1 : Fin 3) < 2 :=
  (by decide +kernel : ∀ t : Fin grid0.N, _)

/-- Every block of the result array is some point's. -/
theorem idx_onto : ∀ (q0 : Fin 32) (q1 : Fin 2), ∃ t : Fin cfg0.N, win0_4.index t = ![q0.val, q1.val, 0] :=
  (by decide +kernel : ∀ (q0 : Fin 32) (q1 : Fin 2), ∃ t : Fin grid0.N, win0_4.index t = ![q0.val, q1.val, 0])

/-- WHAT POINT `t` WRITES BACK is block `t` of `G` (pixel axes merged) of the argument arrays. -/
theorem flushed_eq (c : Dev nD) (hA : ∀ i, ∃ r : ℝ, Am m c i = (r : EReal)) (hB : ∀ i, ∃ r : ℝ, Bm m c i = (r : EReal))
    (hS : ∀ i, 0 ≤ (Sm m c i).toInt) (t : Fin cfg0.N) :
    (dats m 0 c).flushed 4 t
      = ((cfg0.win 4).blk t).view.read (Elt Ideal) (G3 (Xm m c) (Sm m c) (Am m c) (Bm m c)) := by
  show (cfg0.win 4).cut (grid0.coords t) ((dats m 0 c).after 4 t) = _
  rw [after0_4]
  unfold out0_4
  rw [View.canon_unit_zero hz3]
  simp only [View.ld_unit_zero (S := S1x1024x1024) hz3, View.ld_unit_zero (S := S1x1x1024) hz3,
    View.ld_unit_zero (S := S1024x512) hz2]
  obtain ⟨e00, e01, e02, e10, e11, e12, e20, e21, e30, e31, e42, hb, hc⟩ := idx_facts t
  refine funext fun (j : S1x1024x1024.Idx) => ?_
  obtain ⟨u, p, q, rfl⟩ : ∃ (u : Fin 1) (p q : Fin 1024), j = ix3 u p q := ⟨j 0, j 1, j 2, eq_ix3 j⟩
  obtain rfl : u = 0 := Subsingleton.elim _ _
  have hp : p.val < 1024 := p.isLt
  have hq : q.val < 1024 := q.isLt
  show k0_pay1 (F := Ideal) (blk0 m c t) (blk1 m c t) (blk2 m c t) (blk3 m c t) (ix3 (0 : Fin 1) p q)
      = G3 (Xm m c) (Sm m c) (Am m c) (Bm m c) (((cfg0.win 4).blk t).view.emb (ix3 (0 : Fin 1) p q))
  have hemb : ((cfg0.win 4).blk t).view.emb (ix3 (0 : Fin 1) p q)
      = ix3 ⟨win0_4.index t (0 : Fin 3), hb⟩ ⟨win0_4.index t (1 : Fin 3) * 1024 + p.val, by omega⟩ q := by
    funext a; apply Fin.ext
    match a with
    | ⟨0, _⟩ => show win0_4.index t (0 : Fin 3) * 1 + 1 * 0 = win0_4.index t (0 : Fin 3); omega
    | ⟨1, _⟩ => show win0_4.index t (1 : Fin 3) * 1024 + 1 * p.val = win0_4.index t (1 : Fin 3) * 1024 + p.val; omega
    | ⟨2, _⟩ => show win0_4.index t (2 : Fin 3) * 1024 + 1 * q.val = q.val; omega
  rw [hemb]
  refine point_eq (Xm m c) (Sm m c) (Am m c) (Bm m c) hA hB hS (blk0 m c t) (blk1 m c t) (blk2 m c t) (blk3 m c t)
    ⟨win0_4.index t (0 : Fin 3), hb⟩ (win0_4.index t (1 : Fin 3) * 1024) (by omega) ?_ ?_ ?_ ?_ p q
  · intro p q
    show V m c main_v0 (((cfg0.win 0).blk t).view.emb (ix3 (0 : Fin 1) p q)) = _
    rw [V_x]
    refine congrArg _ (funext fun a => Fin.ext ?_)
    match a with
    | ⟨0, _⟩ => show win0_0.index t (0 : Fin 3) * 1 + 1 * 0 = win0_4.index t (0 : Fin 3); omega
    | ⟨1, _⟩ => show win0_0.index t (1 : Fin 3) * 1024 + 1 * p.val = win0_4.index t (1 : Fin 3) * 1024 + p.val; omega
    | ⟨2, _⟩ => show win0_0.index t (2 : Fin 3) * 1024 + 1 * q.val = q.val; omega
  · intro q
    show V m c main_v2 (((cfg0.win 1).blk t).view.emb (ix3 (0 : Fin 1) (0 : Fin 1) q)) = _
    rw [V_slot]
    refine congrArg _ (funext fun a => Fin.ext ?_)
    match a with
    | ⟨0, _⟩ => show win0_1.index t (0 : Fin 3) * 1 + 1 * 0 = win0_4.index t (0 : Fin 3); omega
    | ⟨1, _⟩ => show win0_1.index t (1 : Fin 3) * 1 + 1 * 0 = 0; omega
    | ⟨2, _⟩ => show win0_1.index t (2 : Fin 3) * 1024 + 1 * q.val = q.val; omega
  · intro p k
    show V m c main_v13 (((cfg0.win 2).blk t).view.emb (ix2 p k)) = _
    rw [V_a]
    refine congrArg _ (funext fun a => Fin.ext ?_)
    match a with
    | ⟨0, _⟩ => show win0_2.index t (0 : Fin 2) * 1024 + 1 * p.val = win0_4.index t (1 : Fin 3) * 1024 + p.val; omega
    | ⟨1, _⟩ => show win0_2.index t (1 : Fin 2) * 512 + 1 * k.val = k.val; omega
  · intro p k
    show V m c main_v14 (((cfg0.win 3).blk t).view.emb (ix2 p k)) = _
    rw [V_b]
    refine congrArg _ (funext fun a => Fin.ext ?_)
    match a with
    | ⟨0, _⟩ => show win0_3.index t (0 : Fin 2) * 1024 + 1 * p.val = win0_4.index t (1 : Fin 3) * 1024 + p.val; omega
    | ⟨1, _⟩ => show win0_3.index t (1 : Fin 2) * 512 + 1 * k.val = k.val; omega

/-- An index of the result array is in point `t`'s block iff each coordinate is in the block's range on its axis. -/
theorem mem_blk (t : Fin cfg0.N) (i : S32x2048x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v15).slice (win0_4.rect t)).set ↔ _
  rw [View.set_slice_whole, Rect.mem_set_unit]
  exact Iff.rfl

/-- The 64 blocks tile the result array: batch `i 0`, channel tile `i 1 / 1024`. -/
theorem cover (i : S32x2048x1024.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 1024 ≤ (i 2).val ∧ (i 2).val < win0_4.index t (2 : Fin 3) * 1024 + 1024
    omega

/-- THE RESULT ARRAY after the region: `G` of the argument arrays, pixel axes merged. -/
theorem final (c : Dev nD) (hA : ∀ i, ∃ r : ℝ, Am m c i = (r : EReal)) (hB : ∀ i, ∃ r : ℝ, Bm m c i = (r : EReal))
    (hS : ∀ i, 0 ≤ (Sm m c i).toInt) :
    (dats m 0 c).arrAt 4 cfg0.N = G3 (Xm m c) (Sm m c) (Am m c) (Bm m c) :=
  (dats m 0 c).arrAt_eq_of_cover 4 (G3 (Xm m c) (Sm m c) (Am m c) (Bm m c))
    (fun t _ => flushed_eq m c hA hB hS t) cover

end Cert.KernelIdeal.Blocks

end
-- ==== Proof.KernelRun.lean ====
/-
  The kernel's run, with its result named. After the region the result array holds `G` with the pixel axes merged
  (`Blocks.final`); the one host operation after the region splits the merged axis back into two, and splitting what
  was merged is the identity: the program's result is `G` of the argument arrays, which end unchanged.
-/
import proofs.«425087_j57501022159267_3_alg».proof.Proof.Blocks
import Idealize.ShloMosaic.Lib.StableHlo.Run

noncomputable section

namespace Cert.KernelIdeal.KernelRun

open Cert.KernelIdeal Cert.KernelIdeal.Gen Cert.KernelIdeal.Blocks
open Idealize.ShloMosaic Idealize.ShloMosaic.TcCoe Idealize.SL.Sem Idealize.ShloMosaic.StableHlo
open Idealize.ShloMosaic.Pipeline (Dat)
open Cert.SlotAffine (G)

variable (m : (ℓ : Loc nD τ sig) → Buf (Elt Ideal) ℓ) (ρ : Dev nD → PrngReg)

/-- The program's result after the host tail: `G` of the argument arrays. -/
theorem tail_eq (c : Dev nD) (hA : ∀ i, ∃ r : ℝ, Am m c i = (r : EReal)) (hB : ∀ i, ∃ r : ℝ, Bm m c i = (r : EReal))
    (hS : ∀ i, 0 ≤ (Sm m c i).toInt) :
    (Pipeline.afterTail₀ cfgs (dats m) 0 (V0 m) [hostOps1] c main_v16 : S32x2048x32x32.Idx → EReal)
      = G (Xm m c) (Sm m c) (Am m c) (Bm m c) := by
  unfold Pipeline.afterTail₀
  show StableHlo.after hostOps1 _ (Proc.devRef .tc main_v16) = _
  after_results
  rw [show Pipeline.withArrays (cfgs 0).spec c (V0 m c) (fun w => (dats m 0 c).arrAt w (cfgs 0).N)
      (Proc.devRef .tc main_v15) = G3 (Xm m c) (Sm m c) (Am m c) (Bm m c) from
    (Pipeline.withArrays_arr spec0 launch0.win.arr_inj c _ _ 4).trans (final m c hA hB hS)]
  unfold G3
  exact shapeCast_shapeCast _ _ _

/-- THE KERNEL'S RUN: every weakly fair execution terminates with the result at `G` of the argument arrays and the
    arguments unchanged — where the tables hold real numbers and no slot id is negative. -/
theorem run (hA : ∀ c i, ∃ r : ℝ, Am m c i = (r : EReal)) (hB : ∀ c i, ∃ r : ℝ, Bm m c i = (r : EReal))
    (hS : ∀ c i, 0 ≤ (Sm m c i).toInt) :
    θ_run defs (onTc (τ := τ) (main (F := Ideal))) ⟨m, fun _ => 0, ρ⟩ fun r => ∀ c : Dev nD,
      r.2.mem ((c.tc : Thread nD τ).loc main_v16) = G (Xm m c) (Sm m c) (Am m c) (Bm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v16 (Pipeline.mem_restRefs_of main_v16 (by decide) (by decide))).trans
        (tail_eq m c (hA c) (hB c) (hS c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.lean ====
/-
  Equivalence over the extended reals of a per-pixel affine modulation kernel and its reference.

  Inputs: an activation `X : [32, 2048, 32, 32]` (batch, channel, height, width), a slot id per pixel
  `S : [32, 32, 32]` (32-bit integers) and two tables `A, B : [256, 2048]` (one row per slot, one column per channel).
  Both programs compute, at `(b, c, h, w)`,
        `A[r, c] · X[b, c, h, w] + B[r, c]`,      `r = S[b, h, w]` read signed and clamped into `[0, 255]`
  (`SlotAffine.G`), under the precondition that the tables' entries are finite and no slot id is negative.

  The reference looks the rows up by a gather: a negative id `s` is first moved to `s + 256`, then the start index
  is clamped. The kernel clips the ids into `[0, 255]`, merges the two pixel axes, and on a grid of 2 channel tiles
  by 32 batches multiplies a doubled table tile `[1024, 512]` by a stacked one-hot matrix `[512, 1024]` of the
  block's ids: the first 256 columns of the doubled table carry the table, the last 256 the residual of a split into a
  high and a low part in a narrower float format — over the reals the split is exact and the residual `t − t` is
  zero, WHICH NEEDS THE ENTRY FINITE (`∞ − ∞` is not zero). One term of each 512-term sum survives: the table entry
  at the clipped id. For an id that is not negative the clipped id and the gather's clamped start index are the same
  row; for a negative id they are not (the reference reads row `s + 256`, the kernel row 0), hence the precondition
  on the ids. Nothing is asked of `X`: both sides are the same expression `a · x + β` in it.

  The three frames are the generated ones (the reference's is its generated run with the result dropped); the
  idealization rewrote nothing, so `preserves` is trivial.
-/
import proofs.«425087_j57501022159267_3_alg».proof.Defs
import proofs.«425087_j57501022159267_3_alg».proof.Proof.Gen.Kernel
import proofs.«425087_j57501022159267_3_alg».proof.Proof.Gen.Kernel.Skeleton
import proofs.«425087_j57501022159267_3_alg».proof.Proof.Gen.Kernel.Launch
import proofs.«425087_j57501022159267_3_alg».proof.Proof.Gen.Kernel.Points
import proofs.«425087_j57501022159267_3_alg».proof.Proof.Gen.Kernel.Frame
import proofs.«425087_j57501022159267_3_alg».proof.Proof.Gen.KernelIdeal
import proofs.«425087_j57501022159267_3_alg».proof.Proof.Gen.KernelIdeal.Skeleton
import proofs.«425087_j57501022159267_3_alg».proof.Proof.Gen.KernelIdeal.Launch
import proofs.«425087_j57501022159267_3_alg».proof.Proof.Gen.KernelIdeal.Points
import proofs.«425087_j57501022159267_3_alg».proof.Proof.Gen.KernelIdeal.Frame
import proofs.«425087_j57501022159267_3_alg».proof.Proof.Gen.ReferenceIdeal
import proofs.«425087_j57501022159267_3_alg».proof.Proof.Gen.ReferenceIdeal.Run
import proofs.«425087_j57501022159267_3_alg».proof.Proof.Gen.ReferenceIdeal.Read
import proofs.«425087_j57501022159267_3_alg».proof.Proof.Gen.Pre_finite_inputs
import proofs.«425087_j57501022159267_3_alg».proof.Proof.PreFacts
import proofs.«425087_j57501022159267_3_alg».proof.Proof.RefValue
import proofs.«425087_j57501022159267_3_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `G` of the argument arrays: the kernel by its blocks (`KernelRun.run`), the reference by
    its operations read at an index (`RefValue.ref_eq`); the precondition supplies real tables and ids `≥ 0`. -/
theorem algebraic : Cert.algebraic_KernelIdeal_ReferenceIdeal := by
  intro m ρ m' ρ' hpre hagree
  have hp := fun c => Cert.PreFacts.of_pre _ _ _ _ (hpre c)
  refine ⟨_, Cert.KernelIdeal.KernelRun.run m ρ (fun c => (hp c).1) (fun c => (hp c).2.1) (fun c => (hp c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Cert.ReferenceIdeal.RefValue.ref_eq _ _ _ _ (hp c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
